-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x281x272 : Shape := ⟨3, ![2048, 281, 272]⟩
abbrev S2048 : Shape := ⟨1, ![2048]⟩
abbrev S4x272x272 : Shape := ⟨3, ![4, 272, 272]⟩
abbrev S4x272 : Shape := ⟨2, ![4, 272]⟩
abbrev S_ : Shape := ⟨0, ![]⟩

class Facts : Prop where
  bcast_S_S2048x281x272 : S_.BroadcastsInDim S2048x281x272 (![] : Fin 0 → Fin S2048x281x272.rank)
  reducesTo_S2048x281x272_S_d0_1_2 : S2048x281x272.ReducesTo [0, 1, 2] S_
  h_S_ : 0 < S_.numel
  bcast_S_S4x272x272 : S_.BroadcastsInDim S4x272x272 (![] : Fin 0 → Fin S4x272x272.rank)
  reducesTo_S4x272x272_S_d0_1_2 : S4x272x272.ReducesTo [0, 1, 2] S_
  bcast_S_S4x272 : S_.BroadcastsInDim S4x272 (![] : Fin 0 → Fin S4x272.rank)
  reducesTo_S4x272_S_d0_1 : S4x272.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg1 : IVec S2048 32) (main_v13 : IVec S_ 1) (main_v15 : IVec S2048 1) (main_c_5 : IVec S_ 32) : IVec S_ 1 :=
  let main_v16 : IVec S2048 32 := broadcastInDim S2048 ![] bcast_S_S2048 main_c_5
  let main_v17 : IVec S2048 1 := cmpi .slt main_arg1 main_v16
  let main_v18 : IVec S2048 1 := andi main_v15 main_v17
  let main_c_6 : IVec S_ 1 := constantI S_ 1 1#1
  let main_v19 : IVec S_ 1 := (fun x v => Host.reduce IntOp.andi x v reducesTo_S2048_S_d0 h_S_) main_v18 main_c_6
  let main_v20 : IVec S_ 1 := andi main_v13 main_v19
  main_v20

def fn {F : FTy → Type} [FloatOps F] (main_arg0 : FVec F S2048x281x272 .f32) (main_arg1 : IVec S2048 32) (main_arg2 : FVec F S4x272x272 .f32) (main_arg3 : FVec F S4x272 .f32) : IVec S_ 1 :=
  let main_v0 : FVec F S2048x281x272 .f32 := Host.absf main_arg0
  let main_cst : FVec F S_ .f32 := constant S_ .f32 0x7F800000#32
  let main_v1 : FVec F S2048x281x272 .f32 := broadcastInDim S2048x281x272 ![] bcast_S_S2048x281x272 main_cst
  let main_v2 : IVec S2048x281x272 1 := cmpf .olt main_v0 main_v1
  let main_c : IVec S_ 1 := constantI S_ 1 1#1
  let main_v3 : IVec S_ 1 := (fun x v => Host.reduce IntOp.andi x v reducesTo_S2048x281x272_S_d0_1_2 h_S_) main_v2 main_c
  let main_v4 : FVec F S4x272x272 .f32 := Host.absf main_arg2
  let main_cst_0 : FVec F S_ .f32 := constant S_ .f32 0x7F800000#32
  let main_v5 : FVec F S4x272x272 .f32 := broadcastInDim S4x272x272 ![] bcast_S_S4x272x272 main_cst_0
  let main_v6 : IVec S4x272x272 1 := cmpf .olt main_v4 main_v5
  let main_c_1 : IVec S_ 1 := constantI S_ 1 1#1
  let main_v7 : IVec S_ 1 := (fun x v => Host.reduce IntOp.andi x v reducesTo_S4x272x272_S_d0_1_2 h_S_) main_v6 main_c_1
  let main_v8 : IVec S_ 1 := andi main_v3 main_v7
  let main_v9 : FVec F S4x272 .f32 := Host.absf main_arg3
  let main_cst_2 : FVec F S_ .f32 := constant S_ .f32 0x7F800000#32
  let main_v10 : FVec F S4x272 .f32 := broadcastInDim S4x272 ![] bcast_S_S4x272 main_cst_2
  let main_v11 : IVec S4x272 1 := cmpf .olt main_v9 main_v10
  let main_c_3 : IVec S_ 1 := constantI S_ 1 1#1
  let main_v12 : IVec S_ 1 := (fun x v => Host.reduce IntOp.andi x v reducesTo_S4x272_S_d0_1 h_S_) main_v11 main_c_3
  let main_v13 : IVec S_ 1 := andi main_v8 main_v12
  let main_c_4 : IVec S_ 32 := constantI S_ 32 0#32
  let main_v14 : IVec S2048 32 := broadcastInDim S2048 ![] bcast_S_S2048 main_c_4
  let main_v15 : IVec S2048 1 := cmpi .sge main_arg1 main_v14
  let main_c_5 : IVec S_ 32 := constantI S_ 32 4#32
  fn_part1 (F := F) main_arg1 main_v13 main_v15 main_c_5
-- ==== Kernel.lean ====
abbrev S2048x281x272 : Shape := ⟨3, ![2048, 281, 272]⟩
abbrev S2048 : Shape := ⟨1, ![2048]⟩
abbrev S4x272x272 : Shape := ⟨3, ![4, 272, 272]⟩
abbrev S4x272 : Shape := ⟨2, ![4, 272]⟩
abbrev S128 : Shape := ⟨1, ![128]⟩
abbrev S1x128 : Shape := ⟨2, ![1, 128]⟩
abbrev S2048x1 : Shape := ⟨2, ![2048, 1]⟩
abbrev S2048x128 : Shape := ⟨2, ![2048, 128]⟩
abbrev S2048x1x128 : Shape := ⟨3, ![2048, 1, 128]⟩
abbrev S1x281x272 : Shape := ⟨3, ![1, 281, 272]⟩
abbrev S1x1x128 : Shape := ⟨3, ![1, 1, 128]⟩
abbrev S281x272 : Shape := ⟨2, ![281, 272]⟩
abbrev S272x272 : Shape := ⟨2, ![272, 272]⟩
abbrev S1x272 : Shape := ⟨2, ![1, 272]⟩
abbrev S1x1 : Shape := ⟨2, ![1, 1]⟩
abbrev S1x272x272 : Shape := ⟨3, ![1, 272, 272]⟩
abbrev S272 : Shape := ⟨1, ![272]⟩

abbrev nBuf : Space → Nat
  | .hbm => 13
  | .vmem => 8
  | .smem => 0
  | _ => 0

abbrev bufTy : (tb : Table) → Fin (tcTables nBuf tb) → BufTy
  | .hbm, ⟨0, _⟩ => ⟨S2048x281x272, .f32⟩
  | .hbm, ⟨1, _⟩ => ⟨S2048, .i32⟩
  | .hbm, ⟨2, _⟩ => ⟨S4x272x272, .f32⟩
  | .hbm, ⟨3, _⟩ => ⟨S4x272, .f32⟩
  | .hbm, ⟨4, _⟩ => ⟨S128, .i32⟩
  | .hbm, ⟨5, _⟩ => ⟨S1x128, .i32⟩
  | .hbm, ⟨6, _⟩ => ⟨S2048x1, .i32⟩
  | .hbm, ⟨7, _⟩ => ⟨S2048x128, .i32⟩
  | .hbm, ⟨8, _⟩ => ⟨S2048x128, .i32⟩
  | .hbm, ⟨9, _⟩ => ⟨S2048x128, .i1⟩
  | .hbm, ⟨10, _⟩ => ⟨S2048x128, .f32⟩
  | .hbm, ⟨11, _⟩ => ⟨S2048x1x128, .f32⟩
  | .hbm, ⟨12, _⟩ => ⟨S2048x281x272, .f32⟩
  | .local _ .vmem, ⟨0, _⟩ => ⟨S1x281x272, .f32⟩
  | .local _ .vmem, ⟨1, _⟩ => ⟨S1x281x272, .f32⟩
  | .local _ .vmem, ⟨2, _⟩ => ⟨S1x1x128, .f32⟩
  | .local _ .vmem, ⟨3, _⟩ => ⟨S1x1x128, .f32⟩
  | .local _ .vmem, ⟨4, _⟩ => ⟨S4x272x272, .f32⟩
  | .local _ .vmem, ⟨5, _⟩ => ⟨S4x272, .f32⟩
  | .local _ .vmem, ⟨6, _⟩ => ⟨S1x281x272, .f32⟩
  | .local _ .vmem, ⟨7, _⟩ => ⟨S1x281x272, .f32⟩
  | _, _ => ⟨S2048x281x272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2048], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x281x272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x272x272 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x272 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x281x272 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S128_S1x128_1 : S128.BroadcastsInDim S1x128 (![1] : Fin 1 → Fin S1x128.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S1x128_S2048x128_0_1 : S1x128.BroadcastsInDim S2048x128 (![0, 1] : Fin 2 → Fin S2048x128.rank)
  bcast_S2048x128_S2048x1x128_0_2 : S2048x128.BroadcastsInDim S2048x1x128 (![0, 2] : Fin 2 → Fin S2048x1x128.rank)
  inb_S1x281x272_S1x281x272_0_0_0 : ∀ a, (![0, 0, 0] : Fin 3 → Nat) a + S1x281x272.size a ≤ S1x281x272.size a
  h_S1x281x272 : 0 < S1x281x272.numel
  shapeCasts_S1x281x272_S281x272 : S1x281x272.ShapeCasts S281x272
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  inb_S4x272x272_S4x272x272_0_0_0 : ∀ a, (![0, 0, 0] : Fin 3 → Nat) a + S4x272x272.size a ≤ S4x272x272.size a
  h_S4x272x272 : 0 < S4x272x272.numel
  inb_S4x272_S4x272_0_0 : ∀ a, (![0, 0] : Fin 2 → Nat) a + S4x272.size a ≤ S4x272.size a
  h_S4x272 : 0 < S4x272.numel
  slices_S1x128_o0_0_S1x1 : S1x128.Slices ![0, 0] S1x1
  inpos_S1x1_p0_0 : ∀ a, (![0, 0] : Fin 2 → Nat) a < S1x1.size a
  slices_S4x272x272_o0_0_0_S1x272x272 : S4x272x272.Slices ![0, 0, 0] S1x272x272
  shapeCasts_S1x272x272_S272x272 : S1x272x272.ShapeCasts S272x272
  slices_S4x272_o0_0_S1x272 : S4x272.Slices ![0, 0] S1x272
  shapeCasts_S1x272_S272 : S1x272.ShapeCasts S272
  shapeCasts_S272_S1x272 : S272.ShapeCasts S1x272
  slices_S1x128_o0_1_S1x1 : S1x128.Slices ![0, 1] S1x1
  slices_S4x272x272_o1_0_0_S1x272x272 : S4x272x272.Slices ![1, 0, 0] S1x272x272
  slices_S4x272_o1_0_S1x272 : S4x272.Slices ![1, 0] S1x272
  slices_S1x128_o0_2_S1x1 : S1x128.Slices ![0, 2] S1x1
  slices_S4x272x272_o2_0_0_S1x272x272 : S4x272x272.Slices ![2, 0, 0] S1x272x272
  slices_S4x272_o2_0_S1x272 : S4x272.Slices ![2, 0] S1x272
  slices_S1x128_o0_3_S1x1 : S1x128.Slices ![0, 3] S1x1
  slices_S4x272x272_o3_0_0_S1x272x272 : S4x272x272.Slices ![3, 0, 0] S1x272x272
  slices_S4x272_o3_0_S1x272 : S4x272.Slices ![3, 0] S1x272
  broadcasts_S1x272_S281x272 : S1x272.Broadcasts S281x272
  shapeCasts_S281x272_S1x281x272 : S281x272.ShapeCasts S1x281x272
  dot_S281x272_S272x272_S281x272_1_0_0_1_n_n_wf : DotDims.WF S281x272 S272x272 S281x272 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x281x272.size a ≤ S2048x281x272.size a
  hwx0_0 : ∀ i : grid0.Coords, EltTy.bits .f32 = 32 ∨ (Rect.block (s := S2048x281x272) S1x281x272.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S2048x1x128.size a
  hwx0_1 : ∀ i : grid0.Coords, EltTy.bits .f32 = 32 ∨ (Rect.block (s := S2048x1x128) S1x1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x272x272.size a ≤ S4x272x272.size a
  hwx0_2 : ∀ i : grid0.Coords, EltTy.bits .f32 = 32 ∨ (Rect.block (s := S4x272x272) S4x272x272.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x272.size a ≤ S4x272.size a
  hwx0_3 : ∀ i : grid0.Coords, EltTy.bits .f32 = 32 ∨ (Rect.block (s := S4x272) S4x272.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x281x272.size a ≤ S2048x281x272.size a
  hwx0_4 : ∀ i : grid0.Coords, EltTy.bits .f32 = 32 ∨ (Rect.block (s := S2048x281x272) S1x281x272.size (cc0_transform_4 i) (hinb0_4 i)).WholeWords (EltTy.packing .f32)

variable [Facts₀]

def dot_S281x272_S272x272_S281x272_1_0_0_1_n_n : DotDims S281x272 S272x272 S281x272 where
  lhsContracting := [1]
  rhsContracting := [0]
  lhsNonContracting := [0]
  rhsNonContracting := [1]
  lhsBatch := []
  rhsBatch := []
  wf := dot_S281x272_S272x272_S281x272_1_0_0_1_n_n_wf

abbrev win0_0 : Pipeline.Window sig grid0 :=
  Pipeline.Window.ofSpec (Memref.whole main_arg0) S1x281x272.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x272x272.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x272.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x281x272.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x281x272 : Shape := ⟨3, ![2048, 281, 272]⟩
abbrev S2048 : Shape := ⟨1, ![2048]⟩
abbrev S4x272x272 : Shape := ⟨3, ![4, 272, 272]⟩
abbrev S4x272 : Shape := ⟨2, ![4, 272]⟩
abbrev S_ : Shape := ⟨0, ![]⟩
abbrev S2048x1 : Shape := ⟨2, ![2048, 1]⟩
abbrev S2048x272x272 : Shape := ⟨3, ![2048, 272, 272]⟩
abbrev S2048x272 : Shape := ⟨2, ![2048, 272]⟩
abbrev S2048x1x272 : Shape := ⟨3, ![2048, 1, 272]⟩

abbrev nBuf : Space → Nat
  | .hbm => 26
  | .vmem => 0
  | .smem => 0
  | _ => 0

abbrev bufTy : (tb : Table) → Fin (tcTables nBuf tb) → BufTy
  | .hbm, ⟨0, _⟩ => ⟨S2048x281x272, .f32⟩
  | .hbm, ⟨1, _⟩ => ⟨S2048, .i32⟩
  | .hbm, ⟨2, _⟩ => ⟨S4x272x272, .f32⟩
  | .hbm, ⟨3, _⟩ => ⟨S4x272, .f32⟩
  | .hbm, ⟨4, _⟩ => ⟨S_, .i32⟩
  | .hbm, ⟨5, _⟩ => ⟨S2048, .i32⟩
  | .hbm, ⟨6, _⟩ => ⟨S2048, .i1⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S2048x1, .i32⟩
  | .hbm, ⟨12, _⟩ => ⟨S2048x272x272, .f32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S2048x1, .i32⟩
  | .hbm, ⟨21, _⟩ => ⟨S2048x272, .f32⟩
  | .hbm, ⟨22, _⟩ => ⟨S2048x281x272, .f32⟩
  | .hbm, ⟨23, _⟩ => ⟨S2048x1x272, .f32⟩
  | .hbm, ⟨24, _⟩ => ⟨S2048x281x272, .f32⟩
  | .hbm, ⟨25, _⟩ => ⟨S2048x281x272, .f32⟩
  | _, _ => ⟨S2048x281x272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048x272_S2048x1x272_0_2 : S2048x272.BroadcastsInDim S2048x1x272 (![0, 2] : Fin 2 → Fin S2048x1x272.rank)
  bcast_S2048x1x272_S2048x281x272_0_1_2 : S2048x1x272.BroadcastsInDim S2048x281x272 (![0, 1, 2] : Fin 3 → Fin S2048x281x272.rank)
  gather_S4x272x272_S2048x1_S2048x272x272_12_0_n_n_0_1_1272272_wf : GatherDims.WF S4x272x272 S2048x1 S2048x272x272 [1, 2] [0] [] [0] [] 1 ![1, 272, 272]
  gather_S4x272_S2048x1_S2048x272_1_0_n_n_0_1_1272_wf : GatherDims.WF S4x272 S2048x1 S2048x272 [1] [0] [] [0] [] 1 ![1, 272]
  dot_S2048x281x272_S2048x272x272_S2048x281x272_2_1_1_2_0_0_wf : DotDims.WF S2048x281x272 S2048x272x272 S2048x281x272 [2] [1] [1] [2] [0] [0]

variable [Facts₀]

def gather_S4x272x272_S2048x1_S2048x272x272_12_0_n_n_0_1_1272272 : GatherDims S4x272x272 S2048x1 S2048x272x272 where
  offsetDims := [1, 2]
  collapsedSliceDims := [0]
  operandBatchingDims := []
  startIndicesBatchingDims := []
  startIndexMap := [0]
  indexVectorDim := 1
  sliceSizes := ![1, 272, 272]
  wf := gather_S4x272x272_S2048x1_S2048x272x272_12_0_n_n_0_1_1272272_wf
def gather_S4x272_S2048x1_S2048x272_1_0_n_n_0_1_1272 : GatherDims S4x272 S2048x1 S2048x272 where
  offsetDims := [1]
  collapsedSliceDims := [0]
  operandBatchingDims := []
  startIndicesBatchingDims := []
  startIndexMap := [0]
  indexVectorDim := 1
  sliceSizes := ![1, 272]
  wf := gather_S4x272_S2048x1_S2048x272_1_0_n_n_0_1_1272_wf
def dot_S2048x281x272_S2048x272x272_S2048x281x272_2_1_1_2_0_0 : DotDims S2048x281x272 S2048x272x272 S2048x281x272 where
  lhsContracting := [2]
  rhsContracting := [1]
  lhsNonContracting := [1]
  rhsNonContracting := [2]
  lhsBatch := [0]
  rhsBatch := [0]
  wf := dot_S2048x281x272_S2048x272x272_S2048x281x272_2_1_1_2_0_0_wf

class Facts : Prop extends Facts₀ where

variable [Facts]
-- ==== Proof.Select.lean ====
/-
  Selecting one of four rows by a one-hot weighted sum, and the function both programs compute.

  A subject id is a 32-bit word `s`. Where `0 ≤ s < 4` as a signed integer, `s` read unsigned is one of
  0, 1, 2, 3; jnp's wrap of a negative index (`s < 0 ? s + 4 : s`) and the gather's clamp into the four rows
  both leave it alone; and the four coefficients `[s = e]` (the compare's bit read as a number, `e = 0 … 3`)
  are 1 at `e = s` and 0 elsewhere. So `0 + [s=0]·w₀ + [s=1]·w₁ + [s=2]·w₂ + [s=3]·w₃ = w_s` on the extended
  reals: `0 · x = 0`, `1 · x = x` and `0 + x = x` hold there for every `x`, infinite or not, so nothing
  is asked of the rows.

  `G` is the layer itself: `out[t, p, q] = Σₖ X[t, p, k] · W[s_t, k, q] + b[s_t, q]`.
-/
import Idealize.ShloMosaic.Lib.ReduceAll
import Idealize.ShloMosaic.Lib.ValueIdx
import Idealize.ShloMosaic.PureOps.Ideal.Laws

noncomputable section

open scoped BigOperators

namespace Cert.Subject

open Idealize.ShloMosaic Idealize.ShloMosaic.ValueIdx

/-! ## A subject word in range -/

/-- A word that is signed-nonnegative and signed-below four is below four read unsigned. -/
theorem toNat_lt_four {s : BitVec 32} (h0 : IntOp.cmpi .sge s 0#32 = 1#1) (h4 : IntOp.cmpi .slt s 4#32 = 1#1) :
    s.toNat < 4 := by
  rw [IntOp.cmpi_sge] at h0
  rw [IntOp.cmpi_slt] at h4
  have e0 : (0#32 : BitVec 32).toInt = 0 := by decide
  have e4 : (4#32 : BitVec 32).toInt = 4 := by decide
  rw [e0] at h0; rw [e4] at h4
  rw [BitVec.toInt_eq_toNat_cond] at h0 h4
  have := s.isLt
  split at h0 <;> split at h4 <;> omega

/-- Such a word reads the same signed and unsigned. -/
theorem toInt_of_lt {s : BitVec 32} (hs : s.toNat < 4) : s.toInt = (s.toNat : Int) := by
  rw [BitVec.toInt_eq_toNat_cond, if_pos (by omega)]

/-- jnp's wrap of a negative index leaves it alone … -/
theorem wrap_of_lt {s : BitVec 32} (hs : s.toNat < 4) :
    Scalar.select (IntOp.cmpi .slt s 0#32) (IntOp.addi s 4#32) s = s := by
  have h : ¬ IntOp.cmpi .slt s 0#32 = 1#1 := by
    rw [IntOp.cmpi_slt, toInt_of_lt hs]
    have e0 : (0#32 : BitVec 32).toInt = 0 := by decide
    rw [e0]; omega
  rw [eq_zero_of_ne_one h, select_zero]

/-- … and so does the clamp into four rows. -/
theorem clamp_of_lt {s : BitVec 32} (hs : s.toNat < 4) : min s.toInt.toNat (4 - 1) = s.toNat := by
  rw [toInt_of_lt hs, Int.toNat_natCast]; omega

/-! ## The one-hot coefficients -/

/-- The coefficient of row `e`: the bit of `s = e` read as a number. -/
def hot (s : BitVec 32) (e : Nat) : EReal := (((IntOp.cmpi .eq s (BitVec.ofNat 32 e)).toNat : ℝ) : EReal)

theorem hot_eq {s : BitVec 32} (e : Nat) (he : e < 4) (hs : s.toNat < 4) : hot s e = if s.toNat = e then 1 else 0 := by
  unfold hot
  by_cases h : s.toNat = e
  · have hse : s = BitVec.ofNat 32 e := BitVec.eq_of_toNat_eq (by rw [BitVec.toNat_ofNat]; omega)
    rw [if_pos h, IntOp.cmpi_eq.mpr hse]
    norm_num
  · have hne : ¬ IntOp.cmpi .eq s (BitVec.ofNat 32 e) = 1#1 := by
      rw [IntOp.cmpi_eq]; intro h'; apply h; rw [h', BitVec.toNat_ofNat]; omega
    rw [if_neg h, eq_zero_of_ne_one hne]
    norm_num

/-- THE SELECTION: the weighted sum of four values by the coefficients of a word in range is the value it names. -/
theorem select_row {s : BitVec 32} (hs : s.toNat < 4) (w : Fin 4 → EReal) :
    (((0 + hot s 0 * w 0) + hot s 1 * w 1) + hot s 2 * w 2) + hot s 3 * w 3 = w ⟨s.toNat, hs⟩ := by
  rw [hot_eq 0 (by omega) hs, hot_eq 1 (by omega) hs, hot_eq 2 (by omega) hs, hot_eq 3 (by omega) hs]
  have h4 : s.toNat = 0 ∨ s.toNat = 1 ∨ s.toNat = 2 ∨ s.toNat = 3 := by omega
  rcases h4 with h | h | h | h
  · have e : (⟨s.toNat, hs⟩ : Fin 4) = 0 := Fin.ext h
    rw [e]; simp [h]
  · have e : (⟨s.toNat, hs⟩ : Fin 4) = 1 := Fin.ext h
    rw [e]; simp [h]
  · have e : (⟨s.toNat, hs⟩ : Fin 4) = 2 := Fin.ext h
    rw [e]; simp [h]
  · have e : (⟨s.toNat, hs⟩ : Fin 4) = 3 := Fin.ext h
    rw [e]; simp [h]

/-! ## The layer -/

/-- The row of the tables a subject word names (read unsigned; a word out of range, which the precondition
    excludes, is sent to the last row only to make this a total function). -/
def row (s : BitVec 32) : Fin 4 := ⟨min s.toNat 3, by omega⟩

theorem row_of_lt {s : BitVec 32} (hs : s.toNat < 4) : row s = ⟨s.toNat, hs⟩ := Fin.ext (by show min s.toNat 3 = s.toNat; omega)

/-- One output element: sample `t`, time step `p`, output feature `q`. -/
def layer (X : (⟨3, ![2048, 281, 272]⟩ : Shape).Idx → EReal) (subj : (⟨1, ![2048]⟩ : Shape).Idx → BitVec 32)
    (W : (⟨3, ![4, 272, 272]⟩ : Shape).Idx → EReal) (b : (⟨2, ![4, 272]⟩ : Shape).Idx → EReal)
    (t : Fin 2048) (p : Fin 281) (q : Fin 272) : EReal :=
  (∑ k : Fin 272, X (ix3 t p k) * W (ix3 (row (subj (ix1 t))) k q)) + b (ix2 (row (subj (ix1 t))) q)

/-- The whole output array. -/
def G (X : (⟨3, ![2048, 281, 272]⟩ : Shape).Idx → EReal) (subj : (⟨1, ![2048]⟩ : Shape).Idx → BitVec 32)
    (W : (⟨3, ![4, 272, 272]⟩ : Shape).Idx → EReal) (b : (⟨2, ![4, 272]⟩ : Shape).Idx → EReal) :
    (⟨3, ![2048, 281, 272]⟩ : Shape).Idx → EReal :=
  fun i => layer X subj W b (i 0) (i 1) (i 2)

end Cert.Subject

end
-- ==== Proof.OneHot.lean ====
/-
  The one-hot array the kernel's host side builds.

  Before the pallas_call the host compares each subject id with the lane numbers 0 … 127 and converts the bits to
  floats: a [2048, 1, 128] array whose element `(t, 0, l)` is 1 when `s_t = l` and 0 otherwise — the coefficient
  `hot s_t l`. The comparison broadcasts the ids along the lanes and the lane numbers along the samples.
-/
import proofs.«426925_j57715770523928_3_alg».proof.Proof.Gen.KernelIdeal.Frame
import proofs.«426925_j57715770523928_3_alg».proof.Proof.Select
import Idealize.ShloMosaic.Lib.StableHlo.Run
import Idealize.ShloMosaic.Lib.Pipeline.Value

noncomputable section

namespace Cert.KernelIdeal.OneHot

open Cert.KernelIdeal Cert.KernelIdeal.Gen Idealize.ShloMosaic Idealize.ShloMosaic.TcCoe Idealize.SL.Sem
open Idealize.ShloMosaic.StableHlo Idealize.ShloMosaic.ValueIdx Cert.Subject

/-- The ids laid along the lanes: element `(t, l)` is `s_t`. -/
theorem ids_apply (h2 : S2048.BroadcastsInDim S2048x1 ![0]) (h3 : S2048x1.BroadcastsInDim S2048x128 ![0, 1])
    (s : S2048.Idx → BitVec 32) (t : Fin 2048) (l : Fin 128) :
    broadcastInDim S2048x128 ![0, 1] h3 (broadcastInDim S2048x1 ![0] h2 s) (ix2 t l) = s (ix1 t) := by
  refine (broadcastInDim_apply _ h3 _ (ix2 t l) (ix2 t (0 : Fin 1)) fun a => ?_).trans
    (broadcastInDim_apply _ h2 s (ix2 t (0 : Fin 1)) (ix1 t) fun a => ?_)
  · match a with
    | ⟨0, _⟩ => show t.val = if (2048 : Nat) = 1 then 0 else t.val; rw [if_neg (by decide)]
    | ⟨1, _⟩ => show 0 = if (1 : Nat) = 1 then 0 else l.val; rw [if_pos rfl]
  · match a with
    | ⟨0, _⟩ => show t.val = if (2048 : Nat) = 1 then 0 else t.val; rw [if_neg (by decide)]

/-- The lane numbers laid along the samples: element `(t, l)` is `l`. -/
theorem lanes_apply (h1 : S128.BroadcastsInDim S1x128 ![1]) (h4 : S1x128.BroadcastsInDim S2048x128 ![0, 1])
    (t : Fin 2048) (l : Fin 128) :
    broadcastInDim S2048x128 ![0, 1] h4 (broadcastInDim S1x128 ![1] h1 (iotaInDim S128 32 0)) (ix2 t l)
      = BitVec.ofNat 32 l.val := by
  refine (broadcastInDim_apply _ h4 _ (ix2 t l) (ix2 (0 : Fin 1) l) fun a => ?_).trans
    ((broadcastInDim_apply _ h1 (iotaInDim S128 32 0) (ix2 (0 : Fin 1) l) (ix1 l) fun a => ?_).trans rfl)
  · match a with
    | ⟨0, _⟩ => show 0 = if (1 : Nat) = 1 then 0 else t.val; rw [if_pos rfl]
    | ⟨1, _⟩ => show l.val = if (128 : Nat) = 1 then 0 else l.val; rw [if_neg (by decide)]
  · match a with
    | ⟨0, _⟩ => show l.val = if (128 : Nat) = 1 then 0 else l.val; rw [if_neg (by decide)]

variable (m : (ℓ : Loc nD τ sig) → Buf (Elt Ideal) ℓ)

/-- The array the region finds in its second window, as the host operations' term of the subject ids. -/
theorem onehot_eq (c : Dev nD) : (V m c main_v7 : S2048x1x128.Idx → EReal) =
    broadcastInDim S2048x1x128 ![0, 2] bcast_S2048x128_S2048x1x128_0_2
      (uitofp (F := Ideal) .f32
        (cmpi .eq
          (broadcastInDim S2048x128 ![0, 1] bcast_S2048x1_S2048x128_0_1
            (broadcastInDim S2048x1 ![0] bcast_S2048_S2048x1_0 (m ((c : Thread nD τ).loc main_arg1))))
          (broadcastInDim S2048x128 ![0, 1] bcast_S1x128_S2048x128_0_1
            (broadcastInDim S1x128 ![1] bcast_S128_S1x128_1 (iotaInDim S128 32 0))))) := by
  dsimp only [Gen.V, Gen.hostOps0]
  after_results

/-- ELEMENT `(t, 0, l)` of it is the coefficient of row `l` for sample `t`'s id. -/
theorem onehot_apply (c : Dev nD) (t : Fin 2048) (l : Fin 128) :
    (V m c main_v7 : S2048x1x128.Idx → EReal) (ix3 t (0 : Fin 1) l)
      = hot (m ((c : Thread nD τ).loc main_arg1) (ix1 t)) l.val := by
  rw [onehot_eq m c]
  refine (broadcastInDim_apply _ bcast_S2048x128_S2048x1x128_0_2 _ (ix3 t (0 : Fin 1) l) (ix2 t l) fun a => ?_).trans ?_
  · match a with
    | ⟨0, _⟩ => show t.val = if (2048 : Nat) = 1 then 0 else t.val; rw [if_neg (by decide)]
    | ⟨1, _⟩ => show l.val = if (128 : Nat) = 1 then 0 else l.val; rw [if_neg (by decide)]
  · unfold uitofp cmpi hot
    rw [ids_apply, lanes_apply]
    rfl

end Cert.KernelIdeal.OneHot

end
-- ==== Proof.LibLayout.lean ====
/-
  LAYOUT OPERATIONS OF SMALL SHAPES READ AT COORDINATES — general, over any extents and element type.

  A kernel body that picks row `e` of a table it holds whole, one lane of a row vector, or adds a row to every row
  of a matrix spells each with `vector.extract_strided_slice`, `vector.shape_cast`, `vector.extract` and
  `vector.broadcast`. Each lemma reads one such operation at an index given by its coordinates:
  a cast that drops or adds a leading unit axis keeps the other coordinates; a unit-height slice at row `e`
  reads row `e`; the one element of a [1, 1] slice at lane `e` is lane `e`; a [1, B] row broadcast to [A, B]
  reads the row at the column.
-/
import Idealize.ShloMosaic.Lib.Pipeline.Value
import Idealize.ShloMosaic.Lib.ValueIdx

namespace Cert.LibLayout

open Idealize.ShloMosaic Idealize.ShloMosaic.ValueIdx

variable {α : Type}

/-- [1, A, B] viewed as [A, B]: element `(a, b)` is element `(0, a, b)`. -/
theorem dropUnit3_apply {A B : Nat} (v : (⟨3, ![1, A, B]⟩ : Shape).Idx → α)
    (h : (⟨3, ![1, A, B]⟩ : Shape).ShapeCasts ⟨2, ![A, B]⟩) (a : Fin A) (b : Fin B) :
    shapeCast ⟨2, ![A, B]⟩ v h (ix2 a b) = v (ix3 0 a b) := by
  refine (shapeCast_dropUnit_apply ![A, B] v h (ix2 a b)).trans (congrArg v ?_)
  funext x; match x with | ⟨0, _⟩ => rfl | ⟨1, _⟩ => rfl | ⟨2, _⟩ => rfl

/-- [A, B] stored as [1, A, B]: element `(0, a, b)` is element `(a, b)`. -/
theorem addUnit3_apply {A B : Nat} (v : (⟨2, ![A, B]⟩ : Shape).Idx → α)
    (h : (⟨2, ![A, B]⟩ : Shape).ShapeCasts ⟨3, ![1, A, B]⟩) (a : Fin A) (b : Fin B) :
    shapeCast ⟨3, ![1, A, B]⟩ v h (ix3 0 a b) = v (ix2 a b) := by
  refine (shapeCast_addUnit_apply ![A, B] v h (ix3 0 a b)).trans (congrArg v ?_)
  funext x; match x with | ⟨0, _⟩ => rfl | ⟨1, _⟩ => rfl

/-- [1, B] viewed as [B]: element `b` is element `(0, b)`. -/
theorem dropUnit2_apply {B : Nat} (v : (⟨2, ![1, B]⟩ : Shape).Idx → α)
    (h : (⟨2, ![1, B]⟩ : Shape).ShapeCasts ⟨1, ![B]⟩) (b : Fin B) :
    shapeCast ⟨1, ![B]⟩ v h (ix1 b) = v (ix2 0 b) := by
  refine (shapeCast_dropUnit_apply ![B] v h (ix1 b)).trans (congrArg v ?_)
  funext x; match x with | ⟨0, _⟩ => rfl | ⟨1, _⟩ => rfl

/-- [B] stored as [1, B]: element `(0, b)` is element `b`. -/
theorem addUnit2_apply {B : Nat} (v : (⟨1, ![B]⟩ : Shape).Idx → α)
    (h : (⟨1, ![B]⟩ : Shape).ShapeCasts ⟨2, ![1, B]⟩) (b : Fin B) :
    shapeCast ⟨2, ![1, B]⟩ v h (ix2 0 b) = v (ix1 b) := by
  refine (shapeCast_addUnit_apply ![B] v h (ix2 0 b)).trans (congrArg v ?_)
  funext x; match x with | ⟨0, _⟩ => rfl

/-- Row `e` of a rank-3 table, as a [1, A, B] slice: element `(0, a, b)` is the table's `(e, a, b)`. -/
theorem sliceRow3_apply {N A B : Nat} (e : Fin N) (x : (⟨3, ![N, A, B]⟩ : Shape).Idx → α)
    (h : (⟨3, ![N, A, B]⟩ : Shape).Slices ![e.val, 0, 0] ⟨3, ![1, A, B]⟩) (a : Fin A) (b : Fin B) :
    extractStridedSlice ⟨3, ![1, A, B]⟩ ![e.val, 0, 0] x h (ix3 0 a b) = x (ix3 e a b) :=
  extractStridedSlice_apply _ x h _ _ fun ax => by
    match ax with
    | ⟨0, _⟩ => show e.val = e.val + 0; omega
    | ⟨1, _⟩ => show a.val = 0 + a.val; omega
    | ⟨2, _⟩ => show b.val = 0 + b.val; omega

/-- Row `e` of a rank-2 table, as a [1, B] slice: element `(0, b)` is the table's `(e, b)`. -/
theorem sliceRow2_apply {N B : Nat} (e : Fin N) (x : (⟨2, ![N, B]⟩ : Shape).Idx → α)
    (h : (⟨2, ![N, B]⟩ : Shape).Slices ![e.val, 0] ⟨2, ![1, B]⟩) (b : Fin B) :
    extractStridedSlice ⟨2, ![1, B]⟩ ![e.val, 0] x h (ix2 0 b) = x (ix2 e b) :=
  extractStridedSlice_apply _ x h _ _ fun ax => by
    match ax with
    | ⟨0, _⟩ => show e.val = e.val + 0; omega
    | ⟨1, _⟩ => show b.val = 0 + b.val; omega

/-- Lane `e` of a [1, L] row, taken as the one element of a [1, 1] slice. -/
theorem lane_apply {L : Nat} (e : Fin L) (v : (⟨2, ![1, L]⟩ : Shape).Idx → α)
    (h : (⟨2, ![1, L]⟩ : Shape).Slices ![0, e.val] ⟨2, ![1, 1]⟩)
    (hp : ∀ ax, (![0, 0] : Fin 2 → Nat) ax < (⟨2, ![1, 1]⟩ : Shape).size ax) :
    extractAt ![0, 0] (extractStridedSlice ⟨2, ![1, 1]⟩ ![0, e.val] v h) hp = v (ix2 0 e) := by
  unfold extractAt
  exact extractStridedSlice_apply _ v h _ _ fun ax => by
    match ax with
    | ⟨0, _⟩ => rfl
    | ⟨1, _⟩ => show e.val = e.val + 0; omega

/-- A [1, B] row added to every row of an [A, B] matrix: element `(a, b)` of its broadcast is the row's `(0, b)`. -/
theorem rowBroadcast_apply {A B : Nat} (hB : B ≠ 1) (v : (⟨2, ![1, B]⟩ : Shape).Idx → α)
    (h : (⟨2, ![1, B]⟩ : Shape).Broadcasts ⟨2, ![A, B]⟩) (a : Fin A) (b : Fin B) :
    broadcastTo ⟨2, ![A, B]⟩ v h (ix2 a b) = v (ix2 0 b) :=
  broadcastTo_apply v h _ _ fun ax => by
    match ax with
    | ⟨0, _⟩ => show 0 = if (1 : Nat) = 1 then 0 else _; rw [if_pos rfl]
    | ⟨1, _⟩ => show b.val = if B = 1 then 0 else b.val; rw [if_neg hB]

end Cert.LibLayout
-- ==== Proof.Body.lean ====
/-
  What the kernel body stores, element by element.

  At one grid point the body holds a sample's [281, 272] matrix `x`, the sample's row `c` of 128 coefficients, and
  the whole tables `W` : [4, 272, 272] and `b` : [4, 272]. It accumulates
  `wg = 0 + c₀·W₀ + c₁·W₁ + c₂·W₂ + c₃·W₃` and `bg = 0 + c₀·b₀ + c₁·b₁ + c₂·b₂ + c₃·b₃` (only lanes 0 … 3 of `c` are
  read), multiplies `x` by `wg` into a zero accumulator and adds `bg` to every row. So the stored element `(p, q)` is
  `Σₖ x[p, k] · wg[k, q] + bg[q]`. Each step below reads one operation at an index; no algebra is used beyond
  `0 + a = a` for the matmul's zero accumulator.
-/
import proofs.«426925_j57715770523928_3_alg».proof.Proof.Gen.KernelIdeal.Frame
import proofs.«426925_j57715770523928_3_alg».proof.Proof.Select
import proofs.«426925_j57715770523928_3_alg».proof.Proof.LibLayout
import Idealize.ShloMosaic.PureOps.Ideal.Laws
import Idealize.ShloMosaic.Lib.ValueIdx

noncomputable section

open scoped BigOperators

namespace Cert.KernelIdeal.Body

open Cert.KernelIdeal Cert.KernelIdeal.Gen Idealize.ShloMosaic Idealize.ShloMosaic.ValueIdx
open Cert.Subject Cert.LibLayout

/-! ## The matrix product at an index -/

theorem lhs_0 (i : S281x272.Idx) (k : dot_S281x272_S272x272_S281x272_1_0_0_1_n_n.contr.Idx) : (dot_S281x272_S272x272_S281x272_1_0_0_1_n_n.lhsIdx i k 0).val = (i 0).val := by
  unfold DotDims.lhsIdx
  rw [dif_neg (show ¬(0 : Fin S281x272.rank) ∈ dot_S281x272_S272x272_S281x272_1_0_0_1_n_n.lhsBatch by decide),
    dif_pos (show (0 : Fin S281x272.rank) ∈ dot_S281x272_S272x272_S281x272_1_0_0_1_n_n.lhsNonContracting by decide)]
  rfl
theorem lhs_1 (i : S281x272.Idx) (k : dot_S281x272_S272x272_S281x272_1_0_0_1_n_n.contr.Idx) : (dot_S281x272_S272x272_S281x272_1_0_0_1_n_n.lhsIdx i k 1).val = (k ⟨0, by decide⟩).val :=
  dot_S281x272_S272x272_S281x272_1_0_0_1_n_n.lhsIdx_val_of_single rfl i k
theorem rhs_0 (i : S281x272.Idx) (k : dot_S281x272_S272x272_S281x272_1_0_0_1_n_n.contr.Idx) : (dot_S281x272_S272x272_S281x272_1_0_0_1_n_n.rhsIdx i k 0).val = (k ⟨0, by decide⟩).val :=
  dot_S281x272_S272x272_S281x272_1_0_0_1_n_n.rhsIdx_val_of_single rfl i k
theorem rhs_1 (i : S281x272.Idx) (k : dot_S281x272_S272x272_S281x272_1_0_0_1_n_n.contr.Idx) : (dot_S281x272_S272x272_S281x272_1_0_0_1_n_n.rhsIdx i k 1).val = (i 1).val := by
  unfold DotDims.rhsIdx
  rw [dif_neg (show ¬(1 : Fin S272x272.rank) ∈ dot_S281x272_S272x272_S281x272_1_0_0_1_n_n.rhsBatch by decide),
    dif_pos (show (1 : Fin S272x272.rank) ∈ dot_S281x272_S272x272_S281x272_1_0_0_1_n_n.rhsNonContracting by decide)]
  rfl

/-- The [281, 272] × [272, 272] product into a zero accumulator, at `(p, q)`: the sum over the shared axis. -/
theorem matmul_at (l : FVec Ideal S281x272 .f32) (r : FVec Ideal S272x272 .f32) (p : Fin 281) (q : Fin 272) :
    matmul dot_S281x272_S272x272_S281x272_1_0_0_1_n_n (some .fp32) l r (constant S281x272 .f32 0x00000000#32) (ix2 p q)
      = ∑ k : Fin 272, l (ix2 p k) * r (ix2 k q) := by
  simp only [matmul]
  rw [Ideal.matmul_constant_zero_apply, ← Equiv.sum_comp (ValueIdx.contrEquiv1 dot_S281x272_S272x272_S281x272_1_0_0_1_n_n 272 rfl rfl).symm]
  refine Finset.sum_congr rfl fun k _ => ?_
  have hk := ValueIdx.contrEquiv1_symm_val dot_S281x272_S272x272_S281x272_1_0_0_1_n_n 272 rfl rfl k
  have el : dot_S281x272_S272x272_S281x272_1_0_0_1_n_n.lhsIdx (ix2 p q) ((ValueIdx.contrEquiv1 dot_S281x272_S272x272_S281x272_1_0_0_1_n_n 272 rfl rfl).symm k) = ix2 p k :=
    funext fun a => Fin.ext (by
      match a with
      | ⟨0, _⟩ => exact lhs_0 _ _
      | ⟨1, _⟩ => exact (lhs_1 _ _).trans hk)
  have er : dot_S281x272_S272x272_S281x272_1_0_0_1_n_n.rhsIdx (ix2 p q) ((ValueIdx.contrEquiv1 dot_S281x272_S272x272_S281x272_1_0_0_1_n_n 272 rfl rfl).symm k) = ix2 k q :=
    funext fun a => Fin.ext (by
      match a with
      | ⟨0, _⟩ => exact (rhs_0 _ _).trans hk
      | ⟨1, _⟩ => exact rhs_1 _ _)
  rw [el, er]

/-! ## The re-laid pieces -/

variable (x0 : Vec Ideal S1x281x272 .f32) (x1 : Vec Ideal S1x1x128 .f32) (x2 : Vec Ideal S4x272x272 .f32)
  (x3 : Vec Ideal S4x272 .f32)

/-- The f32 zero the accumulators start from. -/
theorem zero_eq : (Scalar.ofBits (F := Ideal) .f32 0x00000000#32 : EReal) = 0 := Ideal.ofBits_zero_f32

/-- Lane `e` of a coefficient row. -/
theorem lane_at (v3 : FVec Ideal S1x128 .f32) (e : Fin 128) (h : S1x128.Slices ![0, e.val] S1x1)
    (hp : ∀ a, (![0, 0] : Fin 2 → Nat) a < S1x1.size a) :
    extractAt ![0, 0] (extractStridedSlice S1x1 ![0, e.val] v3 h) hp = v3 (ix2 0 e) :=
  lane_apply e v3 h hp

/-- The coefficient row as loaded: lane `e` is element `(0, 0, e)` of the block. -/
theorem row_at (e : Fin 128) : k0_pay3 x1 (ix2 0 e) = x1 (ix3 0 0 e) := by
  unfold k0_pay3
  exact dropUnit3_apply x1 _ 0 e

theorem coef0 : k0_pay4 x1 = x1 (ix3 0 0 0) := by
  unfold k0_pay4
  exact (lane_at (k0_pay3 x1) ⟨0, by decide⟩ _ _).trans (row_at x1 _)
theorem coef1 : k0_pay5 x1 = x1 (ix3 0 0 1) := by
  unfold k0_pay5
  exact (lane_at (k0_pay3 x1) ⟨1, by decide⟩ _ _).trans (row_at x1 _)
theorem coef2 : k0_pay7 x1 = x1 (ix3 0 0 2) := by
  unfold k0_pay7
  exact (lane_at (k0_pay3 x1) ⟨2, by decide⟩ _ _).trans (row_at x1 _)

/-- Row `e` of the weight table, as the body slices and re-views it: element `(k, q)`. -/
theorem wrow (e : Fin 4) (h1 : S4x272x272.Slices ![e.val, 0, 0] S1x272x272) (h2 : S1x272x272.ShapeCasts S272x272)
    (k q : Fin 272) :
    shapeCast S272x272 (extractStridedSlice S1x272x272 ![e.val, 0, 0] x2 h1) h2 (ix2 k q) = x2 (ix3 e k q) :=
  (dropUnit3_apply _ h2 k q).trans (sliceRow3_apply e x2 h1 k q)

/-- Row `e` of the bias table, as the body slices and re-views it: element `(0, q)`. -/
theorem brow (e : Fin 4) (h1 : S4x272.Slices ![e.val, 0] S1x272) (h2 : S1x272.ShapeCasts S272)
    (h3 : S272.ShapeCasts S1x272) (q : Fin 272) :
    shapeCast S1x272 (shapeCast S272 (extractStridedSlice S1x272 ![e.val, 0] x3 h1) h2) h3 (ix2 0 q) = x3 (ix2 e q) :=
  (addUnit2_apply _ h3 q).trans ((dropUnit2_apply _ h2 q).trans (sliceRow2_apply e x3 h1 q))

/-! ## The partial accumulations -/

/-- The weights accumulated over rows 0, 1, 2. -/
theorem wacc_apply (k q : Fin 272) :
    k0_pay8 x1 x2 (ix2 k q)
      = ((0 + x1 (ix3 0 0 0) * x2 (ix3 0 k q)) + x1 (ix3 0 0 1) * x2 (ix3 1 k q)) + x1 (ix3 0 0 2) * x2 (ix3 2 k q) := by
  have w0 := fun h1 h2 => wrow x2 ⟨0, by decide⟩ h1 h2 k q
  have w1 := fun h1 h2 => wrow x2 ⟨1, by decide⟩ h1 h2 k q
  have w2 := fun h1 h2 => wrow x2 ⟨2, by decide⟩ h1 h2 k q
  unfold k0_pay8
  simp only [addf_apply, mulf_apply, broadcast_apply]
  rw [coef0, coef1, coef2, zero_eq]
  exact congrArg₂ (· + ·) (congrArg₂ (· + ·) (congrArg (0 + x1 (ix3 0 0 0) * ·) (w0 _ _))
    (congrArg (x1 (ix3 0 0 1) * ·) (w1 _ _))) (congrArg (x1 (ix3 0 0 2) * ·) (w2 _ _))

/-- The bias accumulated over rows 0, 1. -/
theorem bacc_apply (q : Fin 272) :
    k0_pay6 x1 x3 (ix2 0 q) = (0 + x1 (ix3 0 0 0) * x3 (ix2 0 q)) + x1 (ix3 0 0 1) * x3 (ix2 1 q) := by
  have b0 := fun h1 h2 h3 => brow x3 ⟨0, by decide⟩ h1 h2 h3 q
  have b1 := fun h1 h2 h3 => brow x3 ⟨1, by decide⟩ h1 h2 h3 q
  unfold k0_pay6
  simp only [addf_apply, mulf_apply, broadcast_apply]
  rw [coef0, coef1, zero_eq]
  exact congrArg₂ (· + ·) (congrArg (0 + x1 (ix3 0 0 0) * ·) (b0 _ _ _)) (congrArg (x1 (ix3 0 0 1) * ·) (b1 _ _ _))

/-- Row 2's term of the bias. -/
theorem bterm2_apply (q : Fin 272) : k0_pay9 x1 x3 (ix2 0 q) = x1 (ix3 0 0 2) * x3 (ix2 2 q) := by
  have b2 := fun h1 h2 h3 => brow x3 ⟨2, by decide⟩ h1 h2 h3 q
  unfold k0_pay9
  simp only [mulf_apply, broadcast_apply]
  rw [coef2]
  exact congrArg (x1 (ix3 0 0 2) * ·) (b2 _ _ _)

/-! ## The stored value -/

/-- The store's payload at `(0, p, q)`, over the values the body has computed before it. -/
theorem pay1_apply (v1 : FVec Ideal S281x272 .f32) (v3 : FVec Ideal S1x128 .f32) (v33 v45 : FVec Ideal S1x272 .f32)
    (v40 : FVec Ideal S272x272 .f32) (p : Fin 281) (q : Fin 272) :
    k0_pay1 v1 v3 x2 x3 v33 v40 v45 (ix3 0 p q)
      = (∑ k : Fin 272, v1 (ix2 p k) * (v40 (ix2 k q) + v3 (ix2 0 3) * x2 (ix3 3 k q)))
        + ((v33 (ix2 0 q) + v45 (ix2 0 q)) + v3 (ix2 0 3) * x3 (ix2 3 q)) := by
  have w3 := fun k h1 h2 => wrow x2 ⟨3, by decide⟩ h1 h2 k q
  have b3 := fun h1 h2 h3 => brow x3 ⟨3, by decide⟩ h1 h2 h3 q
  have l3 := fun h hp => lane_at v3 ⟨3, by decide⟩ h hp
  unfold k0_pay1
  refine (addUnit3_apply _ _ p q).trans ?_
  rw [addf_apply, matmul_at, rowBroadcast_apply (by decide)]
  refine congrArg₂ (· + ·) (Finset.sum_congr rfl fun k _ => ?_) ?_
  · simp only [addf_apply, mulf_apply, broadcast_apply]
    exact congrArg (v1 (ix2 p k) * ·) (congrArg₂ (· + ·) rfl (congrArg₂ (· * ·) (l3 _ _) (w3 k _ _)))
  · simp only [addf_apply, mulf_apply, broadcast_apply]
    exact congrArg₂ (· + ·) rfl (congrArg₂ (· * ·) (l3 _ _) (b3 _ _ _))

/-- THE BODY'S RESULT at `(0, p, q)`, from the blocks it loads: the sample's row `p` times the weights selected
    by the coefficients' lanes 0 … 3, plus the bias selected the same way. -/
theorem body_apply (p : Fin 281) (q : Fin 272) :
    k0_pay1 (k0_pay2 x0) (k0_pay3 x1) x2 x3 (k0_pay6 x1 x3) (k0_pay8 x1 x2) (k0_pay9 x1 x3) (ix3 0 p q)
      = (∑ k : Fin 272, x0 (ix3 0 p k) *
          ((((0 + x1 (ix3 0 0 0) * x2 (ix3 0 k q)) + x1 (ix3 0 0 1) * x2 (ix3 1 k q)) + x1 (ix3 0 0 2) * x2 (ix3 2 k q))
            + x1 (ix3 0 0 3) * x2 (ix3 3 k q)))
        + ((((0 + x1 (ix3 0 0 0) * x3 (ix2 0 q)) + x1 (ix3 0 0 1) * x3 (ix2 1 q)) + x1 (ix3 0 0 2) * x3 (ix2 2 q))
            + x1 (ix3 0 0 3) * x3 (ix2 3 q)) := by
  rw [pay1_apply, row_at, bacc_apply, bterm2_apply]
  refine congrArg₂ (· + ·) (Finset.sum_congr rfl fun k _ => ?_) rfl
  rw [wacc_apply]
  unfold k0_pay2
  rw [dropUnit3_apply]

end Cert.KernelIdeal.Body

end
-- ==== Proof.KernelValue.lean ====
/-
  The kernel computes the layer.

  The pallas_call runs 2048 grid points. Point `t` fetches sample `t`'s [1, 281, 272] block of `X`, row `t` of the
  one-hot array ([1, 1, 128]), and the two tables whole; it writes block `t` of the output. With the body's result
  (element `(p, q)`: row `p` of the sample times the weights selected by the four coefficients, plus the bias so
  selected), the coefficients `[s_t = e]` and the selection law, what point `t` writes back is block `t` of `G`.
  The 2048 blocks tile the output array, so the array ends holding `G`.
-/
import proofs.«426925_j57715770523928_3_alg».proof.Proof.Gen.KernelIdeal.Value
import proofs.«426925_j57715770523928_3_alg».proof.Proof.OneHot
import proofs.«426925_j57715770523928_3_alg».proof.Proof.Body
import proofs.«426925_j57715770523928_3_alg».proof.Proof.Select

noncomputable section

open scoped BigOperators

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.Subject

variable (m : (ℓ : Loc nD τ sig) → Buf (Elt Ideal) ℓ) (ρ : Dev nD → PrngReg)

/-! ## The arguments and the blocks, at their literal types -/

abbrev Xarr (c : Dev nD) : S2048x281x272.Idx → EReal := m ((c : Thread nD τ).loc main_arg0)
abbrev sarr (c : Dev nD) : S2048.Idx → BitVec 32 := m ((c : Thread nD τ).loc main_arg1)
abbrev Warr (c : Dev nD) : S4x272x272.Idx → EReal := m ((c : Thread nD τ).loc main_arg2)
abbrev barr (c : Dev nD) : S4x272.Idx → EReal := m ((c : Thread nD τ).loc main_arg3)

/-- The layer of the arguments as launched. -/
abbrev Gk (c : Dev nD) : S2048x281x272.Idx → EReal := G (Xarr m c) (sarr m c) (Warr m c) (barr m c)

abbrev xblk (c : Dev nD) (t : Fin cfg0.N) : Vec Ideal S1x281x272 .f32 := iblk m c 0 t
abbrev cblk (c : Dev nD) (t : Fin cfg0.N) : Vec Ideal S1x1x128 .f32 := iblk m c 1 t
abbrev wblk (c : Dev nD) (t : Fin cfg0.N) : Vec Ideal S4x272x272 .f32 := iblk m c 2 t
abbrev bblk (c : Dev nD) (t : Fin cfg0.N) : Vec Ideal S4x272 .f32 := iblk m c 3 t

/-- A grid point as a sample number. -/
abbrev pt (t : Fin cfg0.N) : Fin 2048 := ⟨t.val, lt_of_lt_of_eq t.isLt (show cfg0.N = 2048 from N_0)⟩

/-! ## The index maps, decided over the grid -/

/-- The sample's block, the coefficient row and the output block move with the point along axis 0; the tables' one block
    stays. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## The blocks read off the arguments -/

/-- Sample `t`'s block of `X`. -/
theorem xblk_apply (c : Dev nD) (t : Fin cfg0.N) (p : Fin 281) (k : Fin 272) :
    xblk m c t (ix3 0 p k) = Xarr m c (ix3 (pt t) p k) := by
  show V m c main_arg0 (((cfg0.win 0).blk t).view.emb (ix3 0 p k)) = _
  rw [V_main_arg0]
  refine congrArg _ (funext fun a => Fin.ext ?_)
  obtain ⟨e0, e1, e2, -⟩ := idx_facts t
  match a with
  | ⟨0, _⟩ => show win0_0.index t (0 : Fin 3) * 1 + 1 * 0 = t.val; omega
  | ⟨1, _⟩ => show win0_0.index t (1 : Fin 3) * 281 + 1 * p.val = p.val; omega
  | ⟨2, _⟩ => show win0_0.index t (2 : Fin 3) * 272 + 1 * k.val = k.val; omega

/-- The tables are held whole at every point. -/
theorem wblk_apply (c : Dev nD) (t : Fin cfg0.N) (e : Fin 4) (k q : Fin 272) :
    wblk m c t (ix3 e k q) = Warr m c (ix3 e k q) := by
  show V m c main_arg2 (((cfg0.win 2).blk t).view.emb (ix3 e k q)) = _
  rw [V_main_arg2]
  refine congrArg _ (funext fun a => Fin.ext ?_)
  obtain ⟨-, -, -, -, -, -, e0, e1, e2, -⟩ := idx_facts t
  match a with
  | ⟨0, _⟩ => show win0_2.index t (0 : Fin 3) * 4 + 1 * e.val = e.val; omega
  | ⟨1, _⟩ => show win0_2.index t (1 : Fin 3) * 272 + 1 * k.val = k.val; omega
  | ⟨2, _⟩ => show win0_2.index t (2 : Fin 3) * 272 + 1 * q.val = q.val; omega

theorem bblk_apply (c : Dev nD) (t : Fin cfg0.N) (e : Fin 4) (q : Fin 272) :
    bblk m c t (ix2 e q) = barr m c (ix2 e q) := by
  show V m c main_arg3 (((cfg0.win 3).blk t).view.emb (ix2 e q)) = _
  rw [V_main_arg3]
  refine congrArg _ (funext fun a => Fin.ext ?_)
  obtain ⟨-, -, -, -, -, -, -, -, -, e0, e1, -⟩ := idx_facts t
  match a with
  | ⟨0, _⟩ => show win0_3.index t (0 : Fin 2) * 4 + 1 * e.val = e.val; omega
  | ⟨1, _⟩ => show win0_3.index t (1 : Fin 2) * 272 + 1 * q.val = q.val; omega

/-- Sample `t`'s coefficient row: lane `l` is `[s_t = l]`. -/
theorem cblk_apply (c : Dev nD) (t : Fin cfg0.N) (l : Fin 128) :
    cblk m c t (ix3 0 0 l) = hot (sarr m c (ix1 (pt t))) l.val := by
  show (V m c main_v7 : S2048x1x128.Idx → EReal) (((cfg0.win 1).blk t).view.emb (ix3 0 0 l)) = _
  rw [← OneHot.onehot_apply m c (pt t) l]
  refine congrArg _ (funext fun a => Fin.ext ?_)
  obtain ⟨-, -, -, e0, e1, e2, -⟩ := idx_facts t
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 128 + 1 * l.val = l.val; omega

theorem cblk0 (c : Dev nD) (t : Fin cfg0.N) : cblk m c t (ix3 0 0 0) = hot (sarr m c (ix1 (pt t))) 0 := cblk_apply m c t 0
theorem cblk1 (c : Dev nD) (t : Fin cfg0.N) : cblk m c t (ix3 0 0 1) = hot (sarr m c (ix1 (pt t))) 1 := cblk_apply m c t 1
theorem cblk2 (c : Dev nD) (t : Fin cfg0.N) : cblk m c t (ix3 0 0 2) = hot (sarr m c (ix1 (pt t))) 2 := cblk_apply m c t 2
theorem cblk3 (c : Dev nD) (t : Fin cfg0.N) : cblk m c t (ix3 0 0 3) = hot (sarr m c (ix1 (pt t))) 3 := cblk_apply m c t 3

/-- Element `(0, p, q)` of output block `t` is element `(t, p, q)` of the array. -/
theorem oblk_emb (t : Fin cfg0.N) (p : Fin 281) (q : Fin 272) :
    ((cfg0.win 4).blk t).view.emb (ix3 0 p q) = (ix3 (pt t) p q : S2048x281x272.Idx) := by
  refine funext fun a => Fin.ext ?_
  obtain ⟨-, -, -, -, -, -, -, -, -, -, -, e0, e1, e2⟩ := idx_facts t
  match a with
  | ⟨0, _⟩ => show win0_4.index t (0 : Fin 3) * 1 + 1 * 0 = t.val; omega
  | ⟨1, _⟩ => show win0_4.index t (1 : Fin 3) * 281 + 1 * p.val = p.val; omega
  | ⟨2, _⟩ => show win0_4.index t (2 : Fin 3) * 272 + 1 * q.val = q.val; omega

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- WHAT POINT `t` WRITES BACK is block `t` of the layer of the arguments, when the subject ids are in range. -/
theorem flushed_eq (c : Dev nD) (hs : ∀ t : Fin 2048, (sarr m c (ix1 t)).toNat < 4) (t : Fin cfg0.N) :
    (dats m 0 c).flushed 4 t = ((cfg0.win 4).blk t).view.read (Elt Ideal) (Gk m c) := by
  rw [Value.flushed4]
  unfold out0_4
  rw [View.canon_unit_zero hz3]
  simp only [View.ld_unit_zero (S := S1x281x272) hz3, View.ld_unit_zero (S := S1x1x128) hz3,
    View.ld_unit_zero (S := S4x272x272) hz3, View.ld_unit_zero (S := S4x272) hz2]
  refine funext fun (j : S1x281x272.Idx) => ?_
  have hj0 : j 0 = (0 : Fin 1) := Fin.ext (by have h : (j 0).val < 1 := (j 0).isLt; show (j 0).val = 0; omega)
  obtain ⟨p, q, rfl⟩ : ∃ (p : Fin 281) (q : Fin 272), j = ix3 (0 : Fin 1) p q :=
    ⟨j 1, j 2, funext fun a => by match a with | ⟨0, _⟩ => exact hj0 | ⟨1, _⟩ => rfl | ⟨2, _⟩ => rfl⟩
  show k0_pay1 (k0_pay2 (xblk m c t)) (k0_pay3 (cblk m c t)) (wblk m c t) (bblk m c t) (k0_pay6 (cblk m c t) (bblk m c t))
      (k0_pay8 (cblk m c t) (wblk m c t)) (k0_pay9 (cblk m c t) (bblk m c t)) (ix3 0 p q)
    = Gk m c (((cfg0.win 4).blk t).view.emb (ix3 0 p q))
  rw [Body.body_apply, oblk_emb]
  simp only [xblk_apply, wblk_apply, bblk_apply, cblk0, cblk1, cblk2, cblk3]
  have hst := hs (pt t)
  show _ = layer (Xarr m c) (sarr m c) (Warr m c) (barr m c) (pt t) p q
  unfold layer
  rw [row_of_lt hst]
  exact congrArg₂ (· + ·)
    (Finset.sum_congr rfl fun k _ => congrArg (Xarr m c (ix3 (pt t) p k) * ·)
      (select_row hst fun e => Warr m c (ix3 e k q)))
    (select_row hst fun e => barr m c (ix2 e q))

/-! ## The cover, the final array, the run -/

/-- An index of the array is in point `t`'s block iff each coordinate is in the block's range on its axis. -/
theorem mem_blk (t : Fin cfg0.N) (i : S2048x281x272.Idx) :
    i ∈ ((cfg0.win 4).blk t).view.set ↔ ∀ a : Fin 3, win0_4.index t a * S1x281x272.size a ≤ (i a).val
      ∧ (i a).val < win0_4.index t a * S1x281x272.size a + S1x281x272.size a := by
  show i ∈ ((View.whole main_v8).slice (win0_4.rect t)).set ↔ _
  rw [View.set_slice_whole, Rect.mem_set_unit]
  exact Iff.rfl

/-- Every index of the output array is in the block of the point numbered by its sample. -/
theorem cover (i : S2048x281x272.Idx) :
    ∃ t : Fin cfg0.N, (cfg0.win 4).flush t = true ∧ i ∈ ((cfg0.win 4).blk t).view.set := by
  have h0 : (i 0).val < 2048 := (i 0).isLt
  have h1 : (i 1).val < 281 := (i 1).isLt
  have h2 : (i 2).val < 272 := (i 2).isLt
  let t : Fin cfg0.N := ⟨(i 0).val, by rw [show cfg0.N = 2048 from N_0]; exact h0⟩
  refine ⟨t, flush0_4 t, ?_⟩
  rw [mem_blk]
  obtain ⟨-, -, -, -, -, -, -, -, -, -, -, e0, e1, e2⟩ := idx_facts t
  have ht : t.val = (i 0).val := rfl
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 281 ≤ (i 1).val ∧ (i 1).val < win0_4.index t (1 : Fin 3) * 281 + 281; omega
  | ⟨2, _⟩ => show win0_4.index t (2 : Fin 3) * 272 ≤ (i 2).val ∧ (i 2).val < win0_4.index t (2 : Fin 3) * 272 + 272; omega

/-- THE OUTPUT ARRAY after the run is the layer of the arguments. -/
theorem final (c : Dev nD) (hs : ∀ t : Fin 2048, (sarr m c (ix1 t)).toNat < 4) :
    (dats m 0 c).arrAt 4 cfg0.N = Gk m c :=
  (dats m 0 c).arrAt_eq_of_cover 4 (Gk m c) (fun t _ => flushed_eq m c hs t) cover

/-- The kernel's run, read: every weakly fair execution ends with the output array at the layer of the arguments and
    the arguments unchanged. -/
theorem run (hs : ∀ (c : Dev nD) (t : Fin 2048), (sarr m c (ix1 t)).toNat < 4) :
    θ_run defs (onTc (τ := τ) (main (F := Ideal))) ⟨m, fun _ => 0, ρ⟩ fun r => ∀ c : Dev nD,
      r.2.mem ((c : Thread nD τ).loc main_v8) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hs c)), (h c).2⟩) (Value.run_blocks m ρ)

end Cert.KernelIdeal.KValue

end
-- ==== Proof.LibGather.lean ====
/-
  A ROW GATHER READ AT AN INDEX — general, over any extents and element type.

  jnp's `table[idx]` over the FIRST axis of a rank-3 table [N, A, B] (resp. a rank-2 table [N, B]) at a vector of
  `R` integer indices prints as a `stablehlo.gather` whose start indices are the [R, 1] column of positions,
  whose first operand axis is collapsed and start-indexed, the other axes offset axes taken whole, the index vector
  on axis 1. Result element `(r, a, b)` (resp. `(r, b)`) is the table's at row `idx[r, 0]` — read as a signed
  integer and clamped into `[0, N − 1]`, as StableHLO clamps every start index — and the same `(a, b)` (resp. `b`).
  The dimension numbers are asked as equations (each `rfl` on a printed record).
-/
import Idealize.ShloMosaic.Lib.ValueIdx

namespace Cert.LibGather

open Idealize.ShloMosaic Idealize.ShloMosaic.ValueIdx

variable {α : Type}

/-! ## A rank-3 table -/

/-- An element of a list known to be `[1, 2]`, at a position known to be `k`. -/
private theorem getElem_of_eq {l : List (Fin 3)} {k : Nat} (h : k < l.length) (hl : l = [1, 2]) :
    (k = 0 → l[k]'h = 1) ∧ (k = 1 → l[k]'h = 2) := by
  subst hl
  exact ⟨fun hk => by subst hk; rfl, fun hk => by subst hk; rfl⟩

section Rank3
variable {N A B R w : Nat} (d : GatherDims ⟨3, ![N, A, B]⟩ ⟨2, ![R, 1]⟩ ⟨3, ![R, A, B]⟩)
  (hoff : d.offsetDims = [1, 2]) (hcoll : d.collapsedSliceDims = [0]) (hob : d.operandBatchingDims = [])
  (hsim : d.startIndexMap = [0]) (hivd : d.indexVectorDim = 1)
include hoff hcoll hob hsim hivd

/-- A batch axis of the result (one that is not an offset axis) is axis 0, so it reads the row position. -/
theorem batch_coord3 (r : Fin R) (a : Fin A) (b : Fin B) (X : Fin 3) (hX : X ∈ d.batchDims) :
    ((ix3 r a b : (⟨3, ![R, A, B]⟩ : Shape).Idx) X).val = r.val := by
  have hn : X ∉ d.offsetDims := by
    have := (List.mem_filter.1 hX).2
    simpa using this
  rw [hoff] at hn
  have h0 : X = 0 := by
    fin_cases X
    · rfl
    · exact absurd (List.mem_cons_self) hn
    · exact absurd (List.mem_cons_of_mem _ List.mem_cons_self) hn
  subst h0; rfl

/-- On the table's row axis: the start index at position `r`, signed and clamped. -/
theorem operandIdx3_0 (idx : IVec ⟨2, ![R, 1]⟩ w) (r : Fin R) (a : Fin A) (b : Fin B) :
    (d.operandIdx (ix3 r a b) idx 0).val = min (idx (ix2 r 0)).toInt.toNat (N - 1) := by
  have hb : (0 : Fin 3) ∉ d.operandBatchingDims := by rw [hob]; exact List.not_mem_nil
  have hk : (0 : Fin 3) ∉ d.sKept := by rw [GatherDims.mem_sKept, hcoll]; simp
  have hm : (0 : Fin 3) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - d.sliceSizes 0) = min (idx (ix2 r 0)).toInt.toNat (N - 1)
  rw [hsl]
  congr 3
  congr 1
  funext bx
  match bx with
  | ⟨0, _⟩ =>
    unfold GatherDims.siIdx
    rw [dif_neg (by rw [hivd]; simp)]
    unfold GatherDims.siCoord
    apply Fin.ext
    simp only [Fin.val_cast]
    exact batch_coord3 d hoff hcoll hob hsim hivd r a b _ (List.getElem_mem _)
  | ⟨1, _⟩ =>
    unfold GatherDims.siIdx
    rw [dif_pos (by rw [hivd])]
    apply Fin.ext
    show List.idxOf (0 : Fin 3) d.startIndexMap = 0
    rw [hsim]; simp

theorem sKept_eq3 : d.sKept = [1, 2] := by
  show Shape.kept _ (d.collapsedSliceDims ++ d.operandBatchingDims) = _
  rw [hcoll, hob]; rfl

/-- On the table's second axis: the result's own coordinate. -/
theorem operandIdx3_1 (idx : IVec ⟨2, ![R, 1]⟩ w) (r : Fin R) (a : Fin A) (b : Fin B) :
    (d.operandIdx (ix3 r a b) idx 1).val = a.val := by
  have hb : (1 : Fin 3) ∉ d.operandBatchingDims := by rw [hob]; exact List.not_mem_nil
  have hk : (1 : Fin 3) ∈ d.sKept := by rw [sKept_eq3 d hoff hcoll hob hsim hivd]; simp
  have hm : (1 : Fin 3) ∉ d.startIndexMap := by rw [hsim]; simp
  simp only [GatherDims.operandIdx, GatherDims.batchCoord_eq_zero _ _ _ hb, Nat.add_zero, GatherDims.start, dif_neg hm,
    Nat.zero_add, GatherDims.offCoord, dif_pos hk]
  have hi : d.sKept.idxOf (1 : Fin 3) = 0 := by rw [sKept_eq3 d hoff hcoll hob hsim hivd]; rfl
  rw [(getElem_of_eq _ hoff).1 hi]

/-- On the table's third axis: the result's own coordinate. -/
theorem operandIdx3_2 (idx : IVec ⟨2, ![R, 1]⟩ w) (r : Fin R) (a : Fin A) (b : Fin B) :
    (d.operandIdx (ix3 r a b) idx 2).val = b.val := by
  have hb : (2 : Fin 3) ∉ d.operandBatchingDims := by rw [hob]; exact List.not_mem_nil
  have hk : (2 : Fin 3) ∈ d.sKept := by rw [sKept_eq3 d hoff hcoll hob hsim hivd]; simp
  have hm : (2 : Fin 3) ∉ d.startIndexMap := by rw [hsim]; simp
  simp only [GatherDims.operandIdx, GatherDims.batchCoord_eq_zero _ _ _ hb, Nat.add_zero, GatherDims.start, dif_neg hm,
    Nat.zero_add, GatherDims.offCoord, dif_pos hk]
  have hi : d.sKept.idxOf (2 : Fin 3) = 1 := by rw [sKept_eq3 d hoff hcoll hob hsim hivd]; rfl
  rw [(getElem_of_eq _ hoff).2 hi]

/-- THE ROW GATHER of a rank-3 table read at `(r, a, b)`. -/
theorem gather_rows3 (hN : 0 < N) (x : (⟨3, ![N, A, B]⟩ : Shape).Idx → α) (idx : IVec ⟨2, ![R, 1]⟩ w)
    (r : Fin R) (a : Fin A) (b : Fin B) :
    Host.gather d x idx (ix3 r a b) = x (ix3 ⟨min (idx (ix2 r 0)).toInt.toNat (N - 1), by omega⟩ a b) := by
  unfold Host.gather
  congr 1
  funext ax
  apply Fin.ext
  match ax with
  | ⟨0, _⟩ => exact operandIdx3_0 d hoff hcoll hob hsim hivd idx r a b
  | ⟨1, _⟩ => exact operandIdx3_1 d hoff hcoll hob hsim hivd idx r a b
  | ⟨2, _⟩ => exact operandIdx3_2 d hoff hcoll hob hsim hivd idx r a b

end Rank3

/-- The element of a list known to be `[1]` at a position known to be `0`. -/
private theorem getElem_one {l : List (Fin 2)} {k : Nat} (h : k < l.length) (hl : l = [1]) (hk : k = 0) : l[k]'h = 1 := by
  subst hl; subst hk; rfl

/-! ## A rank-2 table -/

section Rank2
variable {N B R w : Nat} (d : GatherDims ⟨2, ![N, B]⟩ ⟨2, ![R, 1]⟩ ⟨2, ![R, B]⟩)
  (hoff : d.offsetDims = [1]) (hcoll : d.collapsedSliceDims = [0]) (hob : d.operandBatchingDims = [])
  (hsim : d.startIndexMap = [0]) (hivd : d.indexVectorDim = 1)
include hoff hcoll hob hsim hivd

/-- A batch axis of the result (one that is not an offset axis) is axis 0, so it reads the row position. -/
theorem batch_coord2 (r : Fin R) (b : Fin B) (X : Fin 2) (hX : X ∈ d.batchDims) :
    ((ix2 r b : (⟨2, ![R, B]⟩ : Shape).Idx) X).val = r.val := by
  have hn : X ∉ d.offsetDims := by
    have := (List.mem_filter.1 hX).2
    simpa using this
  rw [hoff] at hn
  have h0 : X = 0 := by
    fin_cases X
    · rfl
    · exact absurd (List.mem_cons_self) hn
  subst h0; rfl

/-- On the table's row axis: the start index at position `r`, signed and clamped. -/
theorem operandIdx2_0 (idx : IVec ⟨2, ![R, 1]⟩ w) (r : Fin R) (b : Fin B) :
    (d.operandIdx (ix2 r b) idx 0).val = min (idx (ix2 r 0)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - d.sliceSizes 0) = min (idx (ix2 r 0)).toInt.toNat (N - 1)
  rw [hsl]
  congr 3
  congr 1
  funext bx
  match bx with
  | ⟨0, _⟩ =>
    unfold GatherDims.siIdx
    rw [dif_neg (by rw [hivd]; simp)]
    unfold GatherDims.siCoord
    apply Fin.ext
    simp only [Fin.val_cast]
    exact batch_coord2 d hoff hcoll hob hsim hivd r b _ (List.getElem_mem _)
  | ⟨1, _⟩ =>
    unfold GatherDims.siIdx
    rw [dif_pos (by rw [hivd])]
    apply Fin.ext
    show List.idxOf (0 : Fin 2) d.startIndexMap = 0
    rw [hsim]; simp

theorem sKept_eq2 : d.sKept = [1] := by
  show Shape.kept _ (d.collapsedSliceDims ++ d.operandBatchingDims) = _
  rw [hcoll, hob]; rfl

/-- On the table's second axis: the result's own coordinate. -/
theorem operandIdx2_1 (idx : IVec ⟨2, ![R, 1]⟩ w) (r : Fin R) (b : Fin B) :
    (d.operandIdx (ix2 r b) idx 1).val = b.val := by
  have hb : (1 : Fin 2) ∉ d.operandBatchingDims := by rw [hob]; exact List.not_mem_nil
  have hk : (1 : Fin 2) ∈ d.sKept := by rw [sKept_eq2 d hoff hcoll hob hsim hivd]; simp
  have hm : (1 : Fin 2) ∉ d.startIndexMap := by rw [hsim]; simp
  simp only [GatherDims.operandIdx, GatherDims.batchCoord_eq_zero _ _ _ hb, Nat.add_zero, GatherDims.start, dif_neg hm,
    Nat.zero_add, GatherDims.offCoord, dif_pos hk]
  have hi : d.sKept.idxOf (1 : Fin 2) = 0 := by rw [sKept_eq2 d hoff hcoll hob hsim hivd]; rfl
  rw [getElem_one _ hoff hi]

/-- THE ROW GATHER of a rank-2 table read at `(r, b)`. -/
theorem gather_rows2 (hN : 0 < N) (x : (⟨2, ![N, B]⟩ : Shape).Idx → α) (idx : IVec ⟨2, ![R, 1]⟩ w)
    (r : Fin R) (b : Fin B) :
    Host.gather d x idx (ix2 r b) = x (ix2 ⟨min (idx (ix2 r 0)).toInt.toNat (N - 1), by omega⟩ b) := by
  unfold Host.gather
  congr 1
  funext ax
  apply Fin.ext
  match ax with
  | ⟨0, _⟩ => exact operandIdx2_0 d hoff hcoll hob hsim hivd idx r b
  | ⟨1, _⟩ => exact operandIdx2_1 d hoff hcoll hob hsim hivd idx r b

end Rank2

end Cert.LibGather
-- ==== Proof.RefValue.lean ====
/-
  The reference computes the layer.

  The reference wraps a negative subject id (`s < 0 ? s + 4 : s`), gathers row `s` of the weight table and of the
  bias table (the gather clamping the row into `0 … 3`), multiplies each sample's [281, 272] matrix by its gathered
  [272, 272] weights (one contracted axis, the sample a batch axis) and adds the gathered bias row along the time axis.
  For a subject id in `0 … 3` the wrap and the clamp do nothing, so element `(t, p, q)` of the result is
  `Σₖ X[t, p, k] · W[s_t, k, q] + b[s_t, q]`: the function `G`.
-/
import proofs.«426925_j57715770523928_3_alg».proof.Proof.Gen.ReferenceIdeal.Read
import proofs.«426925_j57715770523928_3_alg».proof.Proof.Select
import proofs.«426925_j57715770523928_3_alg».proof.Proof.LibGather

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Subject

variable (s : S2048.Idx → BitVec 32)

/-- The index column the weight gather reads: at row `t` the subject word itself, when it is in range. -/
theorem wcol_apply (t : Fin 2048) (hs : (s (ix1 t)).toNat < 4) :
    val_main_v5 (F := Ideal) s (ix2 t 0) = s (ix1 t) := by
  rw [val_main_v5_apply, val_main_v4_apply, val_main_v1_apply, val_main_v3_apply, val_main_v0_apply, val_main_v2_apply,
    val_main_c_apply, val_main_c_0_apply]
  have e : idx_main_v5 (ix2 t (0 : Fin 1)) = ix1 t := funext fun a => by match a with | ⟨0, _⟩ => rfl
  rw [e]
  exact wrap_of_lt hs

/-- The index column the bias gather reads: the same. -/
theorem bcol_apply (t : Fin 2048) (hs : (s (ix1 t)).toNat < 4) :
    val_main_v12 (F := Ideal) s (ix2 t 0) = s (ix1 t) := by
  rw [val_main_v12_apply, val_main_v11_apply, val_main_v8_apply, val_main_v10_apply, val_main_v7_apply, val_main_v9_apply,
    val_main_c_1_apply, val_main_c_2_apply]
  have e : idx_main_v12 (ix2 t (0 : Fin 1)) = ix1 t := funext fun a => by match a with | ⟨0, _⟩ => rfl
  rw [e]
  exact wrap_of_lt hs

/-- The gathered weights: sample `t`'s matrix is row `s_t` of the table. -/
theorem weights_apply (W : S4x272x272.Idx → EReal) (t : Fin 2048) (k q : Fin 272) (hs : (s (ix1 t)).toNat < 4) :
    val_main_v6 (F := Ideal) s W (ix3 t k q) = W (ix3 (row (s (ix1 t))) k q) := by
  unfold val_main_v6
  refine (Cert.LibGather.gather_rows3 gather_S4x272x272_S2048x1_S2048x272x272_12_0_n_n_0_1_1272272 rfl rfl rfl rfl rfl
    (by decide) W (val_main_v5 (F := Ideal) s) t k q).trans ?_
  refine congrArg (fun r : Fin 4 => W (ix3 r k q)) (Fin.ext ?_)
  show min (val_main_v5 (F := Ideal) s (ix2 t 0)).toInt.toNat (4 - 1) = min (s (ix1 t)).toNat 3
  rw [wcol_apply s t hs, clamp_of_lt hs]; omega

/-- The gathered bias: sample `t`'s row is row `s_t` of the table. -/
theorem bias_apply (b : S4x272.Idx → EReal) (t : Fin 2048) (q : Fin 272) (hs : (s (ix1 t)).toNat < 4) :
    val_main_v13 (F := Ideal) s b (ix2 t q) = b (ix2 (row (s (ix1 t))) q) := by
  unfold val_main_v13
  refine (Cert.LibGather.gather_rows2 gather_S4x272_S2048x1_S2048x272_1_0_n_n_0_1_1272 rfl rfl rfl rfl rfl
    (by decide) b (val_main_v12 (F := Ideal) s) t q).trans ?_
  refine congrArg (fun r : Fin 4 => b (ix2 r q)) (Fin.ext ?_)
  show min (val_main_v12 (F := Ideal) s (ix2 t 0)).toInt.toNat (4 - 1) = min (s (ix1 t)).toNat 3
  rw [bcol_apply s t hs, clamp_of_lt hs]; omega

/-- THE REFERENCE'S RESULT is the layer, for subject ids in range. -/
theorem ref_eq (X : S2048x281x272.Idx → EReal) (W : S4x272x272.Idx → EReal) (b : S4x272.Idx → EReal)
    (hs : ∀ t : Fin 2048, (s (ix1 t)).toNat < 4) :
    val_main_v17 (F := Ideal) X s W b = G X s W b := by
  funext i
  obtain ⟨t, p, q, rfl⟩ : ∃ (t : Fin 2048) (p : Fin 281) (q : Fin 272), i = ix3 t p q := ⟨i 0, i 1, i 2, eq_ix3 i⟩
  rw [val_main_v17_apply, val_main_v14_apply, val_main_v16_apply, val_main_v15_apply]
  have el : ∀ k : Fin 272, lidx_main_v14 (ix3 t p q) k = ix3 t p k := fun k =>
    funext fun a => by match a with | ⟨0, _⟩ => rfl | ⟨1, _⟩ => rfl | ⟨2, _⟩ => rfl
  have er : ∀ k : Fin 272, ridx_main_v14 (ix3 t p q) k = ix3 t k q := fun k =>
    funext fun a => by match a with | ⟨0, _⟩ => rfl | ⟨1, _⟩ => rfl | ⟨2, _⟩ => rfl
  have eb : idx_main_v15 (idx_main_v16 (ix3 t p q)) = ix2 t q :=
    funext fun a => by match a with | ⟨0, _⟩ => rfl | ⟨1, _⟩ => rfl
  rw [eb, bias_apply s b t q (hs t)]
  simp only [el, er, weights_apply s W t _ q (hs t)]
  rfl

end Cert.ReferenceIdeal.RefValue

end
-- ==== Proof.PreRange.lean ====
/-
  What the precondition says of the subject ids.

  The precondition is the conjunction of "every float input is finite" with
  `all (subject ≥ 0 ∧ subject < 4)` (signed compares, reduced by `and` over the 2048 ids). Where it holds, every
  id read unsigned is below four. Only this last conjunct is used by the certificate: the selection by 0/1
  coefficients is exact on all extended reals.
-/
import proofs.«426925_j57715770523928_3_alg».proof.Pre_finite_inputs
import proofs.«426925_j57715770523928_3_alg».proof.Proof.Gen.Pre_finite_inputs
import proofs.«426925_j57715770523928_3_alg».proof.Proof.Select
import Idealize.ShloMosaic.Lib.ReduceAll

namespace Cert.Pre_finite_inputs.Range

open Cert.Pre_finite_inputs Idealize.ShloMosaic Idealize.ShloMosaic.ValueIdx Cert.Subject

instance : Subsingleton S_.Idx := ⟨fun a b => funext fun d => d.elim0⟩

/-- Under the precondition every subject id is one of 0, 1, 2, 3. -/
theorem subject_lt {F : FTy → Type} [FloatOps F] (X : FVec F S2048x281x272 .f32) (s : IVec S2048 32)
    (W : FVec F S4x272x272 .f32) (b : FVec F S4x272 .f32)
    (h : Cert.Pre_finite_inputs.fn (F := F) X s W b = fun _ => 1#1) (t : Fin 2048) : (s (ix1 t)).toNat < 4 := by
  have h0 := congrFun h ix0
  dsimp only [Cert.Pre_finite_inputs.fn, Cert.Pre_finite_inputs.fn_part1] at h0
  have h1 := (IntOp.andi_eq_one.1 h0).2
  have h2 := Host.reduce_andi_all _ _ _ _ _ h1 (ix1 t)
  obtain ⟨ha, hb⟩ := IntOp.andi_eq_one.1 h2
  exact toNat_lt_four ha hb

end Cert.Pre_finite_inputs.Range
-- ==== Proof.lean ====
/-
  A per-subject linear layer: `out[t] = X[t] · W[s_t] + b[s_t]` for 2048 samples `X[t]` : [281, 272], four weight
  matrices `W[e]` : [272, 272] with bias rows `b[e]` : [272], and a subject id `s_t` per sample.

  The reference gathers row `s_t` of both tables and does one batched matrix product. The kernel never indexes:
  its host side turns each id into a row of 0/1 coefficients `[s_t = l]` (lanes `l = 0 … 127`), and the body, holding
  both tables whole, forms `0 + [s_t=0]·W[0] + [s_t=1]·W[1] + [s_t=2]·W[2] + [s_t=3]·W[3]` (likewise for `b`) before one
  [281, 272] × [272, 272] product per grid point. For an id in `0 … 3` exactly one coefficient is 1 and the sum is
  `W[s_t]`, on all extended reals (`0·x = 0`, `1·x = x`, `0 + x = x` need no finiteness); outside `0 … 3` the
  kernel's sum is 0 while the reference's gather wraps or clamps the id, so the statement carries the precondition
  `0 ≤ subject < 4`, and that conjunct is the only part of the precondition the proof opens.

  Both sides are shown equal to one function `G` (Proof/Select.lean), element by element:
  the reference through its generated run and read-at-an-index lemmas, with the two gathers read by hand
  (Proof/RefValue.lean over Proof/LibGather.lean); the kernel through its generated frame run, the body's stored value
  (Proof/Body.lean over Proof/LibLayout.lean), the host-built coefficients (Proof/OneHot.lean) and the 2048 output blocks
  tiling the array (Proof/KernelValue.lean). The range of the ids is read off the precondition in Proof/PreRange.lean.
  The three frames are the generated ones; the ideal pass rewrote nothing, so `preserves` is `True`.
-/
import proofs.«426925_j57715770523928_3_alg».proof.Defs
import proofs.«426925_j57715770523928_3_alg».proof.Proof.Gen.Kernel
import proofs.«426925_j57715770523928_3_alg».proof.Proof.Gen.Kernel.Skeleton
import proofs.«426925_j57715770523928_3_alg».proof.Proof.Gen.Kernel.Launch
import proofs.«426925_j57715770523928_3_alg».proof.Proof.Gen.Kernel.Points
import proofs.«426925_j57715770523928_3_alg».proof.Proof.Gen.Kernel.Frame
import proofs.«426925_j57715770523928_3_alg».proof.Proof.Gen.KernelIdeal
import proofs.«426925_j57715770523928_3_alg».proof.Proof.Gen.KernelIdeal.Skeleton
import proofs.«426925_j57715770523928_3_alg».proof.Proof.Gen.KernelIdeal.Launch
import proofs.«426925_j57715770523928_3_alg».proof.Proof.Gen.KernelIdeal.Points
import proofs.«426925_j57715770523928_3_alg».proof.Proof.Gen.KernelIdeal.Frame
import proofs.«426925_j57715770523928_3_alg».proof.Proof.Gen.ReferenceIdeal
import proofs.«426925_j57715770523928_3_alg».proof.Proof.Gen.Pre_finite_inputs
import proofs.«426925_j57715770523928_3_alg».proof.Proof.Gen.KernelIdeal.Value
import proofs.«426925_j57715770523928_3_alg».proof.Proof.Gen.ReferenceIdeal.Run
import proofs.«426925_j57715770523928_3_alg».proof.Proof.Gen.ReferenceIdeal.Read
import proofs.«426925_j57715770523928_3_alg».proof.Proof.KernelValue
import proofs.«426925_j57715770523928_3_alg».proof.Proof.RefValue
import proofs.«426925_j57715770523928_3_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments alone: the generated frame. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is straight-line host code: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From agreeing arguments with every subject id in `0 … 3`, both programs end with the layer `G` of the arguments:
    the kernel's output array by its run read block by block, the reference's by its run read stage by stage. -/
theorem algebraic : Cert.algebraic_KernelIdeal_ReferenceIdeal := by
  intro m ρ m' ρ' hpre hagree
  have hs : ∀ (c : Dev Cert.KernelIdeal.nD) (t : Fin 2048), (Cert.KernelIdeal.KValue.sarr m c (ix1 t)).toNat < 4 :=
    fun c t => Cert.Pre_finite_inputs.Range.subject_lt _ _ _ _ (hpre c) t
  refine ⟨fun c => Cert.KernelIdeal.KValue.Gk m c, Cert.KernelIdeal.KValue.run m ρ hs, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2]
  exact Cert.ReferenceIdeal.RefValue.ref_eq _ _ _ _ (hs c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
